-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000 : Shape := ⟨1, ![800000]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000 : S_.BroadcastsInDim S800000 (![] : Fin 0 → Fin S800000.rank)
  reducesTo_S800000_S_d0 : S800000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x256 .f32) (main_arg1 : IVec S800000 32) (main_arg2 : IVec S800000 32) (main_arg3 : FVec F S800000 .f32) (main_arg4 : FVec F S256x128 .f32) (main_arg5 : FVec F S128 .f32) (main_arg6 : FVec F S128x128 .f32) (main_arg7 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S50000x256 : Shape := ⟨2, ![50000, 256]⟩
abbrev S800000 : Shape := ⟨1, ![800000]⟩
abbrev S256x128 : Shape := ⟨2, ![256, 128]⟩
abbrev S128 : Shape := ⟨1, ![128]⟩
abbrev S128x128 : Shape := ⟨2, ![128, 128]⟩
abbrev S50000x128 : Shape := ⟨2, ![50000, 128]⟩
abbrev S2000x256 : Shape := ⟨2, ![2000, 256]⟩
abbrev S2000x128 : Shape := ⟨2, ![2000, 128]⟩
abbrev S800000x1 : Shape := ⟨2, ![800000, 1]⟩
abbrev S_ : Shape := ⟨0, ![]⟩
abbrev S800000x128 : Shape := ⟨2, ![800000, 128]⟩
abbrev S1x128 : Shape := ⟨2, ![1, 128]⟩

abbrev nBuf : Space → Nat
  | .hbm => 50
  | .vmem => 20
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S256x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S50000x256, .bf16⟩
  | .hbm, ⟨9, _⟩ => ⟨S256x128, .bf16⟩
  | .hbm, ⟨10, _⟩ => ⟨S128x128, .bf16⟩
  | .hbm, ⟨11, _⟩ => ⟨S50000x128, .f32⟩
  | .hbm, ⟨12, _⟩ => ⟨S800000x1, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S800000x128, .f32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S1x128, .f32⟩
  | .hbm, ⟨29, _⟩ => ⟨S50000x128, .f32⟩
  | .hbm, ⟨30, _⟩ => ⟨S50000x128, .bf16⟩
  | .hbm, ⟨31, _⟩ => ⟨S50000x128, .f32⟩
  | .hbm, ⟨32, _⟩ => ⟨S800000x1, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x128, .f32⟩
  | .hbm, ⟨42, _⟩ => ⟨S800000x128, .f32⟩
  | .hbm, ⟨43, _⟩ => ⟨S800000x128, .f32⟩
  | .hbm, ⟨44, _⟩ => ⟨S_, .f32⟩
  | .hbm, ⟨45, _⟩ => ⟨S50000x128, .f32⟩
  | .hbm, ⟨46, _⟩ => ⟨S800000x1, .i32⟩
  | .hbm, ⟨47, _⟩ => ⟨S50000x128, .f32⟩
  | .hbm, ⟨48, _⟩ => ⟨S1x128, .f32⟩
  | .hbm, ⟨49, _⟩ => ⟨S50000x128, .f32⟩
  | .local _ .vmem, ⟨0, _⟩ => ⟨S2000x256, .bf16⟩
  | .local _ .vmem, ⟨1, _⟩ => ⟨S2000x256, .bf16⟩
  | .local _ .vmem, ⟨2, _⟩ => ⟨S256x128, .bf16⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .bf16⟩
  | .local _ .vmem, ⟨11, _⟩ => ⟨S2000x128, .bf16⟩
  | .local _ .vmem, ⟨12, _⟩ => ⟨S128x128, .bf16⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_1 : Ref sig .tc := ⟨.hbm, 33, rfl⟩
abbrev main_v22 : Ref sig .tc := ⟨.hbm, 34, rfl⟩
abbrev main_v23 : Ref sig .tc := ⟨.hbm, 35, rfl⟩
abbrev main_c_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  bitsLt_bf16_f32 : FTy.bits .bf16 < FTy.bits .f32
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S2000x128_S2000x128_0_0 : ∀ a, (![0, 0] : Fin 2 → Nat) a + S2000x128.size a ≤ S2000x128.size a
  h_S2000x128 : 0 < S2000x128.numel
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  dot_S2000x256_S256x128_S2000x128_1_0_0_1_n_n_wf : DotDims.WF S2000x256 S256x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .bf16 = 32 ∨ (Rect.block (s := S50000x256) S2000x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .bf16 = 32 ∨ (Rect.block (s := S256x128) S256x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .bf16 = 32 ∨ (Rect.block (s := S50000x128) S2000x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .bf16 = 32 ∨ (Rect.block (s := S128x128) S128x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)

variable [Facts₀]

def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v16) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v19) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v20) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v33) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v34) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v35) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x256 : Shape := ⟨2, ![50000, 256]⟩
abbrev S800000 : Shape := ⟨1, ![800000]⟩
abbrev S256x128 : Shape := ⟨2, ![256, 128]⟩
abbrev S128 : Shape := ⟨1, ![128]⟩
abbrev S128x128 : Shape := ⟨2, ![128, 128]⟩
abbrev S50000x128 : Shape := ⟨2, ![50000, 128]⟩
abbrev S800000x1 : Shape := ⟨2, ![800000, 1]⟩
abbrev S_ : Shape := ⟨0, ![]⟩
abbrev S800000x128 : Shape := ⟨2, ![800000, 128]⟩
abbrev S1x128 : Shape := ⟨2, ![1, 128]⟩

abbrev nBuf : Space → Nat
  | .hbm => 54
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S256x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S50000x128, .f32⟩
  | .hbm, ⟨9, _⟩ => ⟨S800000x1, .f32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x128, .f32⟩
  | .hbm, ⟨19, _⟩ => ⟨S800000x128, .f32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S1x128, .f32⟩
  | .hbm, ⟨26, _⟩ => ⟨S50000x128, .f32⟩
  | .hbm, ⟨27, _⟩ => ⟨S50000x128, .f32⟩
  | .hbm, ⟨28, _⟩ => ⟨S_, .f32⟩
  | .hbm, ⟨29, _⟩ => ⟨S50000x128, .f32⟩
  | .hbm, ⟨30, _⟩ => ⟨S50000x128, .f32⟩
  | .hbm, ⟨31, _⟩ => ⟨S50000x128, .f32⟩
  | .hbm, ⟨32, _⟩ => ⟨S800000x1, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x128, .f32⟩
  | .hbm, ⟨42, _⟩ => ⟨S800000x128, .f32⟩
  | .hbm, ⟨43, _⟩ => ⟨S800000x128, .f32⟩
  | .hbm, ⟨44, _⟩ => ⟨S_, .f32⟩
  | .hbm, ⟨45, _⟩ => ⟨S50000x128, .f32⟩
  | .hbm, ⟨46, _⟩ => ⟨S800000x1, .i32⟩
  | .hbm, ⟨47, _⟩ => ⟨S50000x128, .f32⟩
  | .hbm, ⟨48, _⟩ => ⟨S1x128, .f32⟩
  | .hbm, ⟨49, _⟩ => ⟨S50000x128, .f32⟩
  | .hbm, ⟨50, _⟩ => ⟨S50000x128, .f32⟩
  | .hbm, ⟨51, _⟩ => ⟨S_, .f32⟩
  | .hbm, ⟨52, _⟩ => ⟨S50000x128, .f32⟩
  | .hbm, ⟨53, _⟩ => ⟨S50000x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_1 : Ref sig .tc := ⟨.hbm, 33, rfl⟩
abbrev main_v20 : Ref sig .tc := ⟨.hbm, 34, rfl⟩
abbrev main_v21 : Ref sig .tc := ⟨.hbm, 35, rfl⟩
abbrev main_c_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_call1_cst : Ref sig .tc := ⟨.hbm, 51, rfl⟩
abbrev main_call1_v0 : Ref sig .tc := ⟨.hbm, 52, rfl⟩
abbrev main_v35 : Ref sig .tc := ⟨.hbm, 53, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Project1.lean ====
import proofs.«145746_j87170656240449_1_alg».proof.Proof.Gen.KernelIdeal.Frame
import Idealize.ShloMosaic.Lib.Pipeline.Value
import Idealize.ShloMosaic.Lib.ValueIdx
import Idealize.ShloMosaic.PureOps.Ideal.Laws

noncomputable section

/-! Layer 1's feature projection: what the matrix-product region leaves in its output array. -/

namespace Cert.KernelIdeal.Layers

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The left factor's entry in row `i 0`, column `k`. -/
abbrev lcoord256 (i : S50000x128.Idx) (k : Fin 256) : S50000x256.Idx := fun a => match a with
  | ⟨0, _⟩ => ⟨(i 0).val, (i 0).isLt⟩
  | ⟨1, _⟩ => ⟨k.val, k.isLt⟩
/-- The right factor's entry in row `k`, column `i 1`. -/
abbrev rcoord256 (i : S50000x128.Idx) (k : Fin 256) : S256x128.Idx := fun a => match a with
  | ⟨0, _⟩ => ⟨k.val, k.isLt⟩
  | ⟨1, _⟩ => ⟨(i 1).val, (i 1).isLt⟩

/-- The node features the region reads, the weights it reads, and the array it leaves, as plain functions into the extended reals. -/
abbrev nodes1 (c : Dev nD) : S50000x256.Idx → EReal := V c main_v0
abbrev weights1 (c : Dev nD) : S256x128.Idx → EReal := V c main_v1
abbrev projected1 (c : Dev nD) : S50000x128.Idx → EReal := (dat0 (F := Ideal) V c).arrAt 2 cfg0.N

/-! ## One row block's product at an entry -/

theorem lhs256_0 (j : S2000x128.Idx) (q : dot_S2000x256_S256x128_S2000x128_1_0_0_1_n_n.contr.Idx) :
    (dot_S2000x256_S256x128_S2000x128_1_0_0_1_n_n.lhsIdx j q 0).val = (j 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhs256_1 (j : S2000x128.Idx) (q : dot_S2000x256_S256x128_S2000x128_1_0_0_1_n_n.contr.Idx) :
    (dot_S2000x256_S256x128_S2000x128_1_0_0_1_n_n.lhsIdx j q 1).val = (q ⟨0, by decide⟩).val :=
  dot_S2000x256_S256x128_S2000x128_1_0_0_1_n_n.lhsIdx_val_of_single rfl j q
theorem rhs256_0 (j : S2000x128.Idx) (q : dot_S2000x256_S256x128_S2000x128_1_0_0_1_n_n.contr.Idx) :
    (dot_S2000x256_S256x128_S2000x128_1_0_0_1_n_n.rhsIdx j q 0).val = (q ⟨0, by decide⟩).val :=
  dot_S2000x256_S256x128_S2000x128_1_0_0_1_n_n.rhsIdx_val_of_single rfl j q
theorem rhs256_1 (j : S2000x128.Idx) (q : dot_S2000x256_S256x128_S2000x128_1_0_0_1_n_n.contr.Idx) :
    (dot_S2000x256_S256x128_S2000x128_1_0_0_1_n_n.rhsIdx j q 1).val = (j 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- Inside a row block: the left block's entry in row `j 0`, column `k`. -/
abbrev lblock256 (j : S2000x128.Idx) (k : Fin 256) : S2000x256.Idx := fun a => match a with
  | ⟨0, _⟩ => ⟨(j 0).val, (j 0).isLt⟩
  | ⟨1, _⟩ => ⟨k.val, k.isLt⟩
/-- Inside a row block: the weights' entry in row `k`, column `j 1`. -/
abbrev rblock256 (j : S2000x128.Idx) (k : Fin 256) : S256x128.Idx := fun a => match a with
  | ⟨0, _⟩ => ⟨k.val, k.isLt⟩
  | ⟨1, _⟩ => ⟨(j 1).val, (j 1).isLt⟩

/-- The body's product of a row block with the weights, into a zero accumulator, is at every entry the sum over the
    256 contracted columns of the products of the two factors' entries. -/
theorem block_product256 (x : Vec Ideal S2000x256 .bf16) (w : Vec Ideal S256x128 .bf16) (j : S2000x128.Idx) :
    k0_pay1 (F := Ideal) x w j = ∑ k : Fin 256, x (lblock256 j k) * w (rblock256 j k) := by
  unfold k0_pay1
  simp only [shapeCast_self, matmul]
  refine (Ideal.matmul_constant_zero_apply (φ₁ := .bf16) (φ₂ := .bf16) dot_S2000x256_S256x128_S2000x128_1_0_0_1_n_n none x w j).trans ?_
  rw [← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx j ((ValueIdx.contrEquiv1 dot_S2000x256_S256x128_S2000x128_1_0_0_1_n_n 256 rfl rfl).symm k) = lblock256 j k := funext fun a => Fin.ext (by
    match a with
    | ⟨0, _⟩ => exact lhs256_0 _ _
    | ⟨1, _⟩ => exact (lhs256_1 _ _).trans hk)
  have er : dot_S2000x256_S256x128_S2000x128_1_0_0_1_n_n.rhsIdx j ((ValueIdx.contrEquiv1 dot_S2000x256_S256x128_S2000x128_1_0_0_1_n_n 256 rfl rfl).symm k) = rblock256 j k := funext fun a => Fin.ext (by
    match a with
    | ⟨0, _⟩ => exact (rhs256_0 _ _).trans hk
    | ⟨1, _⟩ => exact rhs256_1 _ _)
  rw [el, er]

/-! ## From the row blocks to the whole array -/

theorem origin256 : (![0, 0] : Fin 2 → Nat) = fun _ => 0 := funext fun a => by fin_cases a <;> rfl

/-- The product of the whole arrays, entry by entry. -/
abbrev product256 (a : S50000x256.Idx → EReal) (b : S256x128.Idx → EReal) : S50000x128.Idx → EReal :=
  fun i => ∑ k : Fin 256, a (lcoord256 i k) * b (rcoord256 i k)

/-- Where the three windows' blocks sit at grid point `t`: the node rows and the output rows move together, block `t`
    of 2000 rows; the weights stay at the origin; no window moves along its columns. A finite statement over the 25 points. -/
theorem block_index256 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What grid point `t` writes back is block `t` of the whole product: an entry of the block's product is the sum over the
    contracted columns, and the factors' entries are the arrays' entries in the block's rows. -/
theorem written_block1 (c : Dev nD) (t : Fin cfg0.N) :
    (dat0 (F := Ideal) V c).flushed 2 t
      = ((cfg0.win 2).blk t).view.read (Elt Ideal) (product256 (nodes1 V c) (weights1 V c)) := by
  show (cfg0.win 2).cut (grid0.coords t) ((dat0 (F := Ideal) V c).after 2 t) = _
  rw [after0_2]
  unfold out0_2
  rw [View.canon_unit_zero origin256]
  simp only [View.ld_unit_zero (S := S2000x256) origin256, View.ld_unit_zero (S := S256x128) origin256]
  obtain ⟨e0, e1, e2, e3, e4, e5⟩ := block_index256 t
  funext j
  show k0_pay1 (F := Ideal) (iblk0 V c 0 t) (iblk0 V c 1 t) j
      = product256 (nodes1 V c) (weights1 V c) (((cfg0.win 2).blk t).view.emb j)
  refine (block_product256 _ _ j).trans ?_
  refine Finset.sum_congr rfl fun k _ => ?_
  have hl : (iblk0 V c 0 t : Vec Ideal S2000x256 .bf16) (lblock256 j k)
      = nodes1 V c (lcoord256 (((cfg0.win 2).blk t).view.emb j) k) := by
    show V c main_v0 (((cfg0.win 0).blk t).view.emb (lblock256 j k)) = V c main_v0 (lcoord256 (((cfg0.win 2).blk t).view.emb j) k)
    refine congrArg (V c main_v0) (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 256 + 1 * k.val = k.val; omega
  have hr : (iblk0 V c 1 t : Vec Ideal S256x128 .bf16) (rblock256 j k)
      = weights1 V c (rcoord256 (((cfg0.win 2).blk t).view.emb j) k) := by
    show V c main_v1 (((cfg0.win 1).blk t).view.emb (rblock256 j k)) = V c main_v1 (rcoord256 (((cfg0.win 2).blk t).view.emb j) k)
    refine congrArg (V c main_v1) (funext fun a => Fin.ext ?_)
    match a with
    | ⟨0, _⟩ => show win0_1.index t (0 : Fin 2) * 256 + 1 * k.val = k.val; omega
    | ⟨1, _⟩ => show win0_1.index t (1 : Fin 2) * 128 + 1 * (j 1).val = win0_2.index t (1 : Fin 2) * 128 + 1 * (j 1).val; omega
  exact congrArg₂ (· * ·) hl hr

/-- An entry of the output array lies in point `t`'s block iff each coordinate lies in the block's range on its axis. -/
theorem mem_block1 (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v3).slice (win0_2.rect t)).set ↔ _
  rw [View.set_slice_whole, Rect.mem_set_unit]
  exact Iff.rfl

/-- The 25 blocks of 2000 rows tile the 50000 rows: row `r` lies in block `r / 2000`, and every block is written back. -/
theorem rows_tiled1 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  have ht : (i 0).val / 2000 < cfg0.N := by rw [hN]; omega
  obtain ⟨e0, e1, e2, e3, e4, e5⟩ := block_index256 ⟨(i 0).val / 2000, ht⟩
  refine ⟨⟨(i 0).val / 2000, ht⟩, flush0_2 _, ?_⟩
  rw [mem_block1]
  intro a
  match a with
  | ⟨0, _⟩ =>
    show win0_2.index ⟨(i 0).val / 2000, ht⟩ (0 : Fin 2) * 2000 ≤ (i 0).val ∧ (i 0).val < win0_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, ht⟩ (1 : Fin 2) * 128 ≤ (i 1).val ∧ (i 1).val < win0_2.index ⟨(i 0).val / 2000, ht⟩ (1 : Fin 2) * 128 + 128
    rw [e5]; omega

/-- Every entry of the projected features is the row-by-column sum of products: the 25 row blocks of 2000 rows tile the 50000 rows,
    and each block's product into a zero accumulator is that sum. -/
theorem project1_out (c : Dev nD) :
    projected1 V c = fun i : S50000x128.Idx => ∑ k : Fin 256, nodes1 V c (lcoord256 i k) * weights1 V c (rcoord256 i k) :=
  (dat0 (F := Ideal) V c).arrAt_eq_of_cover 2 (product256 (nodes1 V c) (weights1 V c)) (fun t _ => written_block1 V c t) rows_tiled1

end Cert.KernelIdeal.Layers
end
-- ==== Proof.Project2.lean ====
import proofs.«145746_j87170656240449_1_alg».proof.Proof.Gen.KernelIdeal.Frame
import Idealize.ShloMosaic.Lib.Pipeline.Value
import Idealize.ShloMosaic.Lib.ValueIdx
import Idealize.ShloMosaic.PureOps.Ideal.Laws

noncomputable section

/-! Layer 2's feature projection: what the matrix-product region leaves in its output array. -/

namespace Cert.KernelIdeal.Layers

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The left factor's entry in row `i 0`, column `k`. -/
abbrev lcoord128 (i : S50000x128.Idx) (k : Fin 128) : S50000x128.Idx := fun a => match a with
  | ⟨0, _⟩ => ⟨(i 0).val, (i 0).isLt⟩
  | ⟨1, _⟩ => ⟨k.val, k.isLt⟩
/-- The right factor's entry in row `k`, column `i 1`. -/
abbrev rcoord128 (i : S50000x128.Idx) (k : Fin 128) : S128x128.Idx := fun a => match a with
  | ⟨0, _⟩ => ⟨k.val, k.isLt⟩
  | ⟨1, _⟩ => ⟨(i 1).val, (i 1).isLt⟩

/-- The node features the region reads, the weights it reads, and the array it leaves, as plain functions into the extended reals. -/
abbrev nodes2 (c : Dev nD) : S50000x128.Idx → EReal := V c main_v19
abbrev weights2 (c : Dev nD) : S128x128.Idx → EReal := V c main_v2
abbrev projected2 (c : Dev nD) : S50000x128.Idx → EReal := (dat2 (F := Ideal) V c).arrAt 2 cfg2.N

/-! ## One row block's product at an entry -/

theorem lhs128_0 (j : S2000x128.Idx) (q : dot_S2000x128_S128x128_S2000x128_1_0_0_1_n_n.contr.Idx) :
    (dot_S2000x128_S128x128_S2000x128_1_0_0_1_n_n.lhsIdx j q 0).val = (j 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs128_1 (j : S2000x128.Idx) (q : dot_S2000x128_S128x128_S2000x128_1_0_0_1_n_n.contr.Idx) :
    (dot_S2000x128_S128x128_S2000x128_1_0_0_1_n_n.lhsIdx j q 1).val = (q ⟨0, by decide⟩).val :=
  dot_S2000x128_S128x128_S2000x128_1_0_0_1_n_n.lhsIdx_val_of_single rfl j q
theorem rhs128_0 (j : S2000x128.Idx) (q : dot_S2000x128_S128x128_S2000x128_1_0_0_1_n_n.contr.Idx) :
    (dot_S2000x128_S128x128_S2000x128_1_0_0_1_n_n.rhsIdx j q 0).val = (q ⟨0, by decide⟩).val :=
  dot_S2000x128_S128x128_S2000x128_1_0_0_1_n_n.rhsIdx_val_of_single rfl j q
theorem rhs128_1 (j : S2000x128.Idx) (q : dot_S2000x128_S128x128_S2000x128_1_0_0_1_n_n.contr.Idx) :
    (dot_S2000x128_S128x128_S2000x128_1_0_0_1_n_n.rhsIdx j q 1).val = (j 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Inside a row block: the left block's entry in row `j 0`, column `k`. -/
abbrev lblock128 (j : S2000x128.Idx) (k : Fin 128) : S2000x128.Idx := fun a => match a with
  | ⟨0, _⟩ => ⟨(j 0).val, (j 0).isLt⟩
  | ⟨1, _⟩ => ⟨k.val, k.isLt⟩
/-- Inside a row block: the weights' entry in row `k`, column `j 1`. -/
abbrev rblock128 (j : S2000x128.Idx) (k : Fin 128) : S128x128.Idx := fun a => match a with
  | ⟨0, _⟩ => ⟨k.val, k.isLt⟩
  | ⟨1, _⟩ => ⟨(j 1).val, (j 1).isLt⟩

/-- The body's product of a row block with the weights, into a zero accumulator, is at every entry the sum over the
    128 contracted columns of the products of the two factors' entries. -/
theorem block_product128 (x : Vec Ideal S2000x128 .bf16) (w : Vec Ideal S128x128 .bf16) (j : S2000x128.Idx) :
    k2_pay1 (F := Ideal) x w j = ∑ k : Fin 128, x (lblock128 j k) * w (rblock128 j k) := by
  unfold k2_pay1
  simp only [shapeCast_self, matmul]
  refine (Ideal.matmul_constant_zero_apply (φ₁ := .bf16) (φ₂ := .bf16) dot_S2000x128_S128x128_S2000x128_1_0_0_1_n_n none x w j).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx j ((ValueIdx.contrEquiv1 dot_S2000x128_S128x128_S2000x128_1_0_0_1_n_n 128 rfl rfl).symm k) = lblock128 j k := funext fun a => Fin.ext (by
    match a with
    | ⟨0, _⟩ => exact lhs128_0 _ _
    | ⟨1, _⟩ => exact (lhs128_1 _ _).trans hk)
  have er : dot_S2000x128_S128x128_S2000x128_1_0_0_1_n_n.rhsIdx j ((ValueIdx.contrEquiv1 dot_S2000x128_S128x128_S2000x128_1_0_0_1_n_n 128 rfl rfl).symm k) = rblock128 j k := funext fun a => Fin.ext (by
    match a with
    | ⟨0, _⟩ => exact (rhs128_0 _ _).trans hk
    | ⟨1, _⟩ => exact rhs128_1 _ _)
  rw [el, er]

/-! ## From the row blocks to the whole array -/

theorem origin128 : (![0, 0] : Fin 2 → Nat) = fun _ => 0 := funext fun a => by fin_cases a <;> rfl

/-- The product of the whole arrays, entry by entry. -/
abbrev product128 (a : S50000x128.Idx → EReal) (b : S128x128.Idx → EReal) : S50000x128.Idx → EReal :=
  fun i => ∑ k : Fin 128, a (lcoord128 i k) * b (rcoord128 i k)

/-- Where the three windows' blocks sit at grid point `t`: the node rows and the output rows move together, block `t`
    of 2000 rows; the weights stay at the origin; no window moves along its columns. A finite statement over the 25 points. -/
theorem block_index128 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- What grid point `t` writes back is block `t` of the whole product: an entry of the block's product is the sum over the
    contracted columns, and the factors' entries are the arrays' entries in the block's rows. -/
theorem written_block2 (c : Dev nD) (t : Fin cfg2.N) :
    (dat2 (F := Ideal) V c).flushed 2 t
      = ((cfg2.win 2).blk t).view.read (Elt Ideal) (product128 (nodes2 V c) (weights2 V c)) := by
  show (cfg2.win 2).cut (grid2.coords t) ((dat2 (F := Ideal) V c).after 2 t) = _
  rw [after2_2]
  unfold out2_2
  rw [View.canon_unit_zero origin128]
  simp only [View.ld_unit_zero (S := S2000x128) origin128, View.ld_unit_zero (S := S128x128) origin128]
  obtain ⟨e0, e1, e2, e3, e4, e5⟩ := block_index128 t
  funext j
  show k2_pay1 (F := Ideal) (iblk2 V c 0 t) (iblk2 V c 1 t) j
      = product128 (nodes2 V c) (weights2 V c) (((cfg2.win 2).blk t).view.emb j)
  refine (block_product128 _ _ j).trans ?_
  refine Finset.sum_congr rfl fun k _ => ?_
  have hl : (iblk2 V c 0 t : Vec Ideal S2000x128 .bf16) (lblock128 j k)
      = nodes2 V c (lcoord128 (((cfg2.win 2).blk t).view.emb j) k) := by
    show V c main_v19 (((cfg2.win 0).blk t).view.emb (lblock128 j k)) = V c main_v19 (lcoord128 (((cfg2.win 2).blk t).view.emb j) k)
    refine congrArg (V c main_v19) (funext fun a => Fin.ext ?_)
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 128 + 1 * k.val = k.val; omega
  have hr : (iblk2 V c 1 t : Vec Ideal S128x128 .bf16) (rblock128 j k)
      = weights2 V c (rcoord128 (((cfg2.win 2).blk t).view.emb j) k) := by
    show V c main_v2 (((cfg2.win 1).blk t).view.emb (rblock128 j k)) = V c main_v2 (rcoord128 (((cfg2.win 2).blk t).view.emb j) k)
    refine congrArg (V c main_v2) (funext fun a => Fin.ext ?_)
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega
  exact congrArg₂ (· * ·) hl hr

/-- An entry of the output array lies in point `t`'s block iff each coordinate lies in the block's range on its axis. -/
theorem mem_block2 (t : Fin cfg2.N) (i : S50000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v20).slice (win2_2.rect t)).set ↔ _
  rw [View.set_slice_whole, Rect.mem_set_unit]
  exact Iff.rfl

/-- The 25 blocks of 2000 rows tile the 50000 rows: row `r` lies in block `r / 2000`, and every block is written back. -/
theorem rows_tiled2 (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 25 := N_2
  have ht : (i 0).val / 2000 < cfg2.N := by rw [hN]; omega
  obtain ⟨e0, e1, e2, e3, e4, e5⟩ := block_index128 ⟨(i 0).val / 2000, ht⟩
  refine ⟨⟨(i 0).val / 2000, ht⟩, flush2_2 _, ?_⟩
  rw [mem_block2]
  intro a
  match a with
  | ⟨0, _⟩ =>
    show win2_2.index ⟨(i 0).val / 2000, ht⟩ (0 : Fin 2) * 2000 ≤ (i 0).val ∧ (i 0).val < win2_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win2_2.index ⟨(i 0).val / 2000, ht⟩ (1 : Fin 2) * 128 ≤ (i 1).val ∧ (i 1).val < win2_2.index ⟨(i 0).val / 2000, ht⟩ (1 : Fin 2) * 128 + 128
    rw [e5]; omega

/-- Every entry of the projected features is the row-by-column sum of products: the 25 row blocks of 2000 rows tile the 50000 rows,
    and each block's product into a zero accumulator is that sum. -/
theorem project2_out (c : Dev nD) :
    projected2 V c = fun i : S50000x128.Idx => ∑ k : Fin 128, nodes2 V c (lcoord128 i k) * weights2 V c (rcoord128 i k) :=
  (dat2 (F := Ideal) V c).arrAt_eq_of_cover 2 (product128 (nodes2 V c) (weights2 V c)) (fun t _ => written_block2 V c t) rows_tiled2

end Cert.KernelIdeal.Layers
end
-- ==== Proof.Activate1.lean ====
import proofs.«145746_j87170656240449_1_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.ValueLayout

noncomputable section

/-! Layer 1's bias and rectifier: what the elementwise region leaves in its output array. -/

namespace Cert.KernelIdeal.Layers

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The aggregated features the region reads, the bias row it reads, and the array it leaves, as plain functions into the
    extended reals. -/
abbrev summed1 (c : Dev nD) : S50000x128.Idx → EReal := V c main_v16
abbrev biasRow1 (c : Dev nD) : S1x128.Idx → EReal := V c main_v17
abbrev activated1 (c : Dev nD) : S50000x128.Idx → EReal := (dat1 (F := Ideal) V c).arrAt 2 cfg1.N

/-- One entry of the rectified sum: the larger of `s + b` and the zero word's value. -/
abbrev rectify1 (s b : EReal) : EReal := max (s + b) (FloatOps.ofBits (F := Ideal) .f32 0x00000000#32)

/-- The whole array as one function of the two arrays read: entry `(r, q)` is `rectify (s (r, q)) (b (0, q))`. -/
abbrev rectified1 (s : S50000x128.Idx → EReal) (b : S1x128.Idx → EReal) : S50000x128.Idx → EReal :=
  fun i => rectify1 (s i) (b (ix2 (0 : Fin 1) (⟨(i 1).val, (i 1).isLt⟩ : Fin 128)))

theorem zeroOff1 : (![0, 0] : Fin 2 → Nat) = fun _ => 0 := funext fun a => by fin_cases a <;> rfl

/-- The body's stored value at row `p`, lane `q` of a block: the block's entry plus the bias row's lane, rectified. -/
theorem body1_apply (x : Vec Ideal S2000x128 .f32) (b : Vec Ideal S1x128 .f32) (p : Fin 2000) (q : Fin 128) :
    k1_pay1 (F := Ideal) x b (ix2 p q) = rectify1 (x (ix2 p q)) (b (ix2 (0 : Fin 1) q)) := by
  unfold k1_pay1
  rw [shapeCast_self, shapeCast_self]
  show max ((x (ix2 p q) : EReal) + broadcastTo S2000x128 b broadcasts_S1x128_S2000x128 (ix2 p q)) _ = _
  rw [broadcastTo_1b_ab_apply]
  rfl

/-- The printed index maps, decided over the 25 grid points: the features' block and the output's block are row block `t`, the
    bias row is always block (0, 0). -/
theorem blockIdx1 : ∀ t : Fin cfg1.N, win1_0.index t (0 : Fin 2) = win1_2.index t (0 : Fin 2)
    ∧ win1_0.index t (1 : Fin 2) = win1_2.index t (1 : Fin 2)
    ∧ win1_1.index t (0 : Fin 2) = 0
    ∧ win1_1.index t (1 : Fin 2) = win1_2.index t (1 : Fin 2)
    ∧ win1_2.index t (0 : Fin 2) ≤ 24
    ∧ win1_2.index t (1 : Fin 2) = 0 :=
  (by decide +kernel : ∀ t : Fin grid1.N, _)

/-- Every row block is some point's. -/
theorem blockOnto1 : ∀ q0 : Fin 25, ∃ t : Fin cfg1.N, win1_2.index t = ![q0.val, 0] :=
  (by decide +kernel : ∀ q0 : Fin 25, ∃ t : Fin grid1.N, win1_2.index t = ![q0.val, 0])

/-- One stored entry, over variables: if the block's entry is the array's entry at `i` and the bias block's lane is the bias row's
    lane of `i`, the body stores the whole-array function's value at `i`. -/
theorem point1 (s : S50000x128.Idx → EReal) (b : S1x128.Idx → EReal) (x : Vec Ideal S2000x128 .f32) (y : Vec Ideal S1x128 .f32)
    (i : S50000x128.Idx) (p : Fin 2000) (q : Fin 128) (hx : x (ix2 p q) = s i)
    (hy : y (ix2 (0 : Fin 1) q) = b (ix2 (0 : Fin 1) (⟨(i 1).val, (i 1).isLt⟩ : Fin 128))) :
    k1_pay1 (F := Ideal) x y (ix2 p q) = rectified1 s b i := by
  rw [body1_apply, hx, hy]

/-- What point `t` writes back is block `t` of the whole-array function of the two arrays the region reads. -/
theorem flushed1_eq (c : Dev nD) (t : Fin cfg1.N) :
    (dat1 (F := Ideal) V c).flushed 2 t
      = ((cfg1.win 2).blk t).view.read (Elt Ideal) (rectified1 (summed1 V c) (biasRow1 V c)) := by
  show (cfg1.win 2).cut (grid1.coords t) ((dat1 (F := Ideal) V c).after 2 t) = _
  rw [after1_2]
  unfold out1_2
  rw [View.canon_unit_zero zeroOff1]
  simp only [View.ld_unit_zero (S := S2000x128) zeroOff1, View.ld_unit_zero (S := S1x128) zeroOff1]
  obtain ⟨e0, e1, e2, e3, e4, e5⟩ := blockIdx1 t
  funext j
  obtain ⟨p, q, rfl⟩ : ∃ (p : Fin 2000) (q : Fin 128), j = ix2 p q := ⟨j 0, j 1, eq_ix2 j⟩
  refine point1 (summed1 V c) (biasRow1 V c) _ _ (((cfg1.win 2).blk t).view.emb (ix2 p q)) p q ?_ ?_
  · show summed1 V c (((cfg1.win 0).blk t).view.emb (ix2 p q)) = summed1 V c (((cfg1.win 2).blk t).view.emb (ix2 p q))
    refine congrArg _ (funext fun a => Fin.ext ?_)
    match a with
    | ⟨0, _⟩ => show win1_0.index t (0 : Fin 2) * 2000 + 1 * p.val = win1_2.index t (0 : Fin 2) * 2000 + 1 * p.val; omega
    | ⟨1, _⟩ => show win1_0.index t (1 : Fin 2) * 128 + 1 * q.val = win1_2.index t (1 : Fin 2) * 128 + 1 * q.val; omega
  · show biasRow1 V c (((cfg1.win 1).blk t).view.emb (ix2 (0 : Fin 1) q)) = biasRow1 V c _
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega

/-- An index of the array lies in point `t`'s block iff each coordinate lies in the block's range on its axis. -/
theorem mem_blk1 (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v18).slice (win1_2.rect t)).set ↔ _
  rw [View.set_slice_whole, Rect.mem_set_unit]
  exact Iff.rfl

/-- The 25 blocks of 2000 rows tile the 50000 rows: row `r` lies in block `r / 2000`. -/
theorem cover1 (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := blockOnto1 ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-- The region's output array after its 25 points: every entry the rectified sum of the aggregated feature and its lane's bias. -/
theorem activate1_out (c : Dev nD) :
    activated1 V c = rectified1 (summed1 V c) (biasRow1 V c) :=
  (dat1 (F := Ideal) V c).arrAt_eq_of_cover 2 (rectified1 (summed1 V c) (biasRow1 V c)) (fun t _ => flushed1_eq V c t) (cover1)

end Cert.KernelIdeal.Layers
end
-- ==== Proof.Activate3.lean ====
import proofs.«145746_j87170656240449_1_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.ValueLayout

noncomputable section

/-! Layer 2's bias and rectifier: what the elementwise region leaves in its output array. -/

namespace Cert.KernelIdeal.Layers

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The aggregated features the region reads, the bias row it reads, and the array it leaves, as plain functions into the
    extended reals. -/
abbrev summed3 (c : Dev nD) : S50000x128.Idx → EReal := V c main_v33
abbrev biasRow3 (c : Dev nD) : S1x128.Idx → EReal := V c main_v34
abbrev activated3 (c : Dev nD) : S50000x128.Idx → EReal := (dat3 (F := Ideal) V c).arrAt 2 cfg3.N

/-- One entry of the rectified sum: the larger of `s + b` and the zero word's value. -/
abbrev rectify3 (s b : EReal) : EReal := max (s + b) (FloatOps.ofBits (F := Ideal) .f32 0x00000000#32)

/-- The whole array as one function of the two arrays read: entry `(r, q)` is `rectify (s (r, q)) (b (0, q))`. -/
abbrev rectified3 (s : S50000x128.Idx → EReal) (b : S1x128.Idx → EReal) : S50000x128.Idx → EReal :=
  fun i => rectify3 (s i) (b (ix2 (0 : Fin 1) (⟨(i 1).val, (i 1).isLt⟩ : Fin 128)))

theorem zeroOff3 : (![0, 0] : Fin 2 → Nat) = fun _ => 0 := funext fun a => by fin_cases a <;> rfl

/-- The body's stored value at row `p`, lane `q` of a block: the block's entry plus the bias row's lane, rectified. -/
theorem body3_apply (x : Vec Ideal S2000x128 .f32) (b : Vec Ideal S1x128 .f32) (p : Fin 2000) (q : Fin 128) :
    k3_pay1 (F := Ideal) x b (ix2 p q) = rectify3 (x (ix2 p q)) (b (ix2 (0 : Fin 1) q)) := by
  unfold k3_pay1
  rw [shapeCast_self, shapeCast_self]
  show max ((x (ix2 p q) : EReal) + broadcastTo S2000x128 b broadcasts_S1x128_S2000x128 (ix2 p q)) _ = _
  rw [broadcastTo_1b_ab_apply]
  rfl

/-- The printed index maps, decided over the 25 grid points: the features' block and the output's block are row block `t`, the
    bias row is always block (0, 0). -/
theorem blockIdx3 : ∀ t : Fin cfg3.N, win3_0.index t (0 : Fin 2) = win3_2.index t (0 : Fin 2)
    ∧ win3_0.index t (1 : Fin 2) = win3_2.index t (1 : Fin 2)
    ∧ win3_1.index t (0 : Fin 2) = 0
    ∧ win3_1.index t (1 : Fin 2) = win3_2.index t (1 : Fin 2)
    ∧ win3_2.index t (0 : Fin 2) ≤ 24
    ∧ win3_2.index t (1 : Fin 2) = 0 :=
  (by decide +kernel : ∀ t : Fin grid3.N, _)

/-- Every row block is some point's. -/
theorem blockOnto3 : ∀ q0 : Fin 25, ∃ t : Fin cfg3.N, win3_2.index t = ![q0.val, 0] :=
  (by decide +kernel : ∀ q0 : Fin 25, ∃ t : Fin grid3.N, win3_2.index t = ![q0.val, 0])

/-- One stored entry, over variables: if the block's entry is the array's entry at `i` and the bias block's lane is the bias row's
    lane of `i`, the body stores the whole-array function's value at `i`. -/
theorem point3 (s : S50000x128.Idx → EReal) (b : S1x128.Idx → EReal) (x : Vec Ideal S2000x128 .f32) (y : Vec Ideal S1x128 .f32)
    (i : S50000x128.Idx) (p : Fin 2000) (q : Fin 128) (hx : x (ix2 p q) = s i)
    (hy : y (ix2 (0 : Fin 1) q) = b (ix2 (0 : Fin 1) (⟨(i 1).val, (i 1).isLt⟩ : Fin 128))) :
    k3_pay1 (F := Ideal) x y (ix2 p q) = rectified3 s b i := by
  rw [body3_apply, hx, hy]

/-- What point `t` writes back is block `t` of the whole-array function of the two arrays the region reads. -/
theorem flushed3_eq (c : Dev nD) (t : Fin cfg3.N) :
    (dat3 (F := Ideal) V c).flushed 2 t
      = ((cfg3.win 2).blk t).view.read (Elt Ideal) (rectified3 (summed3 V c) (biasRow3 V c)) := by
  show (cfg3.win 2).cut (grid3.coords t) ((dat3 (F := Ideal) V c).after 2 t) = _
  rw [after3_2]
  unfold out3_2
  rw [View.canon_unit_zero zeroOff3]
  simp only [View.ld_unit_zero (S := S2000x128) zeroOff3, View.ld_unit_zero (S := S1x128) zeroOff3]
  obtain ⟨e0, e1, e2, e3, e4, e5⟩ := blockIdx3 t
  funext j
  obtain ⟨p, q, rfl⟩ : ∃ (p : Fin 2000) (q : Fin 128), j = ix2 p q := ⟨j 0, j 1, eq_ix2 j⟩
  refine point3 (summed3 V c) (biasRow3 V c) _ _ (((cfg3.win 2).blk t).view.emb (ix2 p q)) p q ?_ ?_
  · show summed3 V c (((cfg3.win 0).blk t).view.emb (ix2 p q)) = summed3 V c (((cfg3.win 2).blk t).view.emb (ix2 p q))
    refine congrArg _ (funext fun a => Fin.ext ?_)
    match a with
    | ⟨0, _⟩ => show win3_0.index t (0 : Fin 2) * 2000 + 1 * p.val = win3_2.index t (0 : Fin 2) * 2000 + 1 * p.val; omega
    | ⟨1, _⟩ => show win3_0.index t (1 : Fin 2) * 128 + 1 * q.val = win3_2.index t (1 : Fin 2) * 128 + 1 * q.val; omega
  · show biasRow3 V c (((cfg3.win 1).blk t).view.emb (ix2 (0 : Fin 1) q)) = biasRow3 V c _
    refine congrArg _ (funext fun a => Fin.ext ?_)
    match a with
    | ⟨0, _⟩ => show win3_1.index t (0 : Fin 2) * 1 + 1 * 0 = 0; omega
    | ⟨1, _⟩ => show win3_1.index t (1 : Fin 2) * 128 + 1 * q.val = win3_2.index t (1 : Fin 2) * 128 + 1 * q.val; omega

/-- An index of the array lies in point `t`'s block iff each coordinate lies in the block's range on its axis. -/
theorem mem_blk3 (t : Fin cfg3.N) (i : S50000x128.Idx) :
    i ∈ ((cfg3.win 2).blk t).view.set ↔ ∀ a : Fin 2, win3_2.index t a * S2000x128.size a ≤ (i a).val ∧ (i a).val < win3_2.index t a * S2000x128.size a + S2000x128.size a := by
  show i ∈ ((View.whole main_v35).slice (win3_2.rect t)).set ↔ _
  rw [View.set_slice_whole, Rect.mem_set_unit]
  exact Iff.rfl

/-- The 25 blocks of 2000 rows tile the 50000 rows: row `r` lies in block `r / 2000`. -/
theorem cover3 (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ := blockOnto3 ⟨(i 0).val / 2000, by omega⟩
  have q0 : win3_2.index t (0 : Fin 2) = (i 0).val / 2000 := congrFun ht 0
  have q1 : win3_2.index t (1 : Fin 2) = 0 := congrFun ht 1
  refine ⟨t, flush3_2 t, ?_⟩
  rw [mem_blk3]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 128 ≤ (i 1).val ∧ (i 1).val < win3_2.index t (1 : Fin 2) * 128 + 128; omega

/-- The region's output array after its 25 points: every entry the rectified sum of the aggregated feature and its lane's bias. -/
theorem activate3_out (c : Dev nD) :
    activated3 V c = rectified3 (summed3 V c) (biasRow3 V c) :=
  (dat3 (F := Ideal) V c).arrAt_eq_of_cover 2 (rectified3 (summed3 V c) (biasRow3 V c)) (fun t _ => flushed3_eq V c t) (cover3)

end Cert.KernelIdeal.Layers
end
-- ==== Proof.Aggregate.lean ====
import proofs.«145746_j87170656240449_1_alg».proof.Proof.Gen.ReferenceIdeal.Read

noncomputable section

/-! The sparse aggregation both programs share: with the edge list `(rows e, cols e, vals e)`, every node `r` receives the sum over
    the edges `e` with `rows e = r` of `vals e` times row `cols e` of the operand (a negative column index first moved up by the
    number of nodes). Both programs print it as the same chain of host operations — the column indices normalised, the rows
    gathered, scaled by the broadcast edge values, and scatter-added into zeros —, so it is carried as ONE function of its four
    operands and never opened. -/

namespace Cert.Gcn

open Cert.ReferenceIdeal Cert.ReferenceIdeal.Gen Idealize.ShloMosaic Idealize.ShloMosaic.TcCoe Idealize.SL.Sem Idealize.ShloMosaic.StableHlo

variable {F : FTy → Type} [FloatOps F]

/-- The adjacency applied to `s`: `out[r] = Σ_{e : rows e = r} vals e · s[cols e]`, as the printed chain of host operations. -/
def aggregate (rows cols : (⟨S800000, .i32⟩ : BufTy).Contents (Elt F)) (vals : (⟨S800000, .f32⟩ : BufTy).Contents (Elt F))
    (s : (⟨S50000x128, .f32⟩ : BufTy).Contents (Elt F)) : (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 rows)
    (mulf (broadcastInDim S800000x128 ![0, 1] bcast_S800000x1_S800000x128_0_1 (broadcastInDim S800000x1 ![0] bcast_S800000_S800000x1_0 vals))
      (Host.gather gather_S50000x128_S800000x1_S800000x128_1_0_n_n_0_1_1128 s
        (broadcastInDim S800000x1 ![0] bcast_S800000_S800000x1_0
          (select (cmpi .slt cols (broadcastInDim S800000 ![] bcast_S_S800000 (constantI S_ 32 0#32)))
            (addi cols (broadcastInDim S800000 ![] bcast_S_S800000 (constantI S_ 32 50000#32))) cols))))

/-- The reference's first aggregation is `aggregate` of its first projection. -/
theorem ref_aggregate1 (x0 : (⟨S50000x256, .f32⟩ : BufTy).Contents (Elt F)) (x1 x2 : (⟨S800000, .i32⟩ : BufTy).Contents (Elt F))
    (x3 : (⟨S800000, .f32⟩ : BufTy).Contents (Elt F)) (x4 : (⟨S256x128, .f32⟩ : BufTy).Contents (Elt F)) :
    Read.val_main_v13 (F := F) x0 x1 x2 x3 x4 = aggregate x1 x2 x3 (Read.val_main_v0 (F := F) x0 x4) := rfl

/-- The reference's second aggregation is `aggregate` of its second projection. -/
theorem ref_aggregate2 (x0 : (⟨S50000x256, .f32⟩ : BufTy).Contents (Elt F)) (x1 x2 : (⟨S800000, .i32⟩ : BufTy).Contents (Elt F))
    (x3 : (⟨S800000, .f32⟩ : BufTy).Contents (Elt F)) (x4 : (⟨S256x128, .f32⟩ : BufTy).Contents (Elt F))
    (x5 : (⟨S128, .f32⟩ : BufTy).Contents (Elt F)) (x6 : (⟨S128x128, .f32⟩ : BufTy).Contents (Elt F)) :
    Read.val_main_v31 (F := F) x0 x1 x2 x3 x4 x5 x6 = aggregate x1 x2 x3 (Read.val_main_v18 (F := F) x0 x1 x2 x3 x4 x5 x6) := rfl

end Cert.Gcn
end
-- ==== Proof.Stretches.lean ====
import proofs.«145746_j87170656240449_1_alg».proof.Proof.Gen.KernelIdeal.Frame
import proofs.«145746_j87170656240449_1_alg».proof.Proof.Aggregate
import Idealize.ShloMosaic.Lib.StableHlo.Run

noncomputable section

/-! The host stretches of the kernel program between its four regions, read as values at the extended reals: what each region finds in
    the arrays it reads, as a function of the launch contents and of what the region before it left. -/

namespace Cert.KernelIdeal.Stretches

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-! ## The argument arrays are never written: they hold their launch contents at every boundary -/

theorem at2_arg1 (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results <;> rfl)
theorem at2_arg2 (c : Dev nD) : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results <;> rfl)
theorem at2_arg3 (c : Dev nD) : W2 m ρ c (Proc.devRef .tc main_arg3) = m ((c : Thread nD τ).loc main_arg3) :=
  (W2_of_ne m ρ c main_arg3 (by decide)).trans (by
    show StableHlo.after hostOps0 (W0 m ρ c) (Proc.devRef .tc main_arg3) = _
    after_results <;> rfl)
theorem at2_arg5 (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results <;> rfl)
theorem at2_arg7 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results <;> rfl)

theorem at6_arg1 (c : Dev nD) : W6 m ρ c (Proc.devRef .tc main_arg1) = m ((c : Thread nD τ).loc main_arg1) :=
  (W6_of_ne m ρ c main_arg1 (by decide)).trans <|
    (show StableHlo.after hostOps2 (W4 m ρ c) (Proc.devRef .tc main_arg1) = W4 m ρ c (Proc.devRef .tc main_arg1) by after_results <;> rfl).trans <|
    (W4_of_ne m ρ c main_arg1 (by decide)).trans <|
    (show StableHlo.after hostOps1 (W2 m ρ c) (Proc.devRef .tc main_arg1) = W2 m ρ c (Proc.devRef .tc main_arg1) by after_results <;> rfl).trans
      (at2_arg1 m ρ c)
theorem at6_arg2 (c : Dev nD) : W6 m ρ c (Proc.devRef .tc main_arg2) = m ((c : Thread nD τ).loc main_arg2) :=
  (W6_of_ne m ρ c main_arg2 (by decide)).trans <|
    (show StableHlo.after hostOps2 (W4 m ρ c) (Proc.devRef .tc main_arg2) = W4 m ρ c (Proc.devRef .tc main_arg2) by after_results <;> rfl).trans <|
    (W4_of_ne m ρ c main_arg2 (by decide)).trans <|
    (show StableHlo.after hostOps1 (W2 m ρ c) (Proc.devRef .tc main_arg2) = W2 m ρ c (Proc.devRef .tc main_arg2) by after_results <;> rfl).trans
      (at2_arg2 m ρ c)
theorem at6_arg3 (c : Dev nD) : W6 m ρ c (Proc.devRef .tc main_arg3) = m ((c : Thread nD τ).loc main_arg3) :=
  (W6_of_ne m ρ c main_arg3 (by decide)).trans <|
    (show StableHlo.after hostOps2 (W4 m ρ c) (Proc.devRef .tc main_arg3) = W4 m ρ c (Proc.devRef .tc main_arg3) by after_results <;> rfl).trans <|
    (W4_of_ne m ρ c main_arg3 (by decide)).trans <|
    (show StableHlo.after hostOps1 (W2 m ρ c) (Proc.devRef .tc main_arg3) = W2 m ρ c (Proc.devRef .tc main_arg3) by after_results <;> rfl).trans
      (at2_arg3 m ρ c)
theorem at6_arg7 (c : Dev nD) : W6 m ρ c (Proc.devRef .tc main_arg7) = m ((c : Thread nD τ).loc main_arg7) :=
  (W6_of_ne m ρ c main_arg7 (by decide)).trans <|
    (show StableHlo.after hostOps2 (W4 m ρ c) (Proc.devRef .tc main_arg7) = W4 m ρ c (Proc.devRef .tc main_arg7) by after_results <;> rfl).trans <|
    (W4_of_ne m ρ c main_arg7 (by decide)).trans <|
    (show StableHlo.after hostOps1 (W2 m ρ c) (Proc.devRef .tc main_arg7) = W2 m ρ c (Proc.devRef .tc main_arg7) by after_results <;> rfl).trans
      (at2_arg7 m ρ c)

/-! ## What the regions read -/

/-- The first projection reads the node features, narrowed to the short float format (the identity on the extended reals). -/
theorem entry0_nodes (c : Dev nD) : (V1 m ρ c main_v0 : S50000x256.Idx → EReal) = (m ((c : Thread nD τ).loc main_arg0) : S50000x256.Idx → EReal) := by
  show StableHlo.after hostOps0 (W0 m ρ c) (Proc.devRef .tc main_v0) = _
  after_results <;> rfl

/-- … and the first layer's weights, narrowed likewise. -/
theorem entry0_weights (c : Dev nD) : (V1 m ρ c main_v1 : S256x128.Idx → EReal) = (m ((c : Thread nD τ).loc main_arg4) : S256x128.Idx → EReal) := by
  show StableHlo.after hostOps0 (W0 m ρ c) (Proc.devRef .tc main_v1) = _
  after_results <;> rfl

/-- The first projection leaves its product in the array the aggregation reads. -/
theorem exit0 (c : Dev nD) : V2 m ρ c main_v3 = (dat0 (V1 m ρ) c).arrAt 2 cfg0.N := W2_arr m ρ c 2

/-- The first rectifier reads the adjacency applied to the first projection … -/
theorem entry1_sum (c : Dev nD) :
    V3 m ρ c main_v16
      = Cert.Gcn.aggregate (F := Ideal) (m ((c : Thread nD τ).loc main_arg1)) (m ((c : Thread nD τ).loc main_arg2)) (m ((c : Thread nD τ).loc main_arg3))
          (V2 m ρ c main_v3) := by
  have h : StableHlo.after hostOps1 (W2 m ρ c) (Proc.devRef .tc main_v16)
      = Cert.Gcn.aggregate (F := Ideal) (W2 m ρ c (Proc.devRef .tc main_arg1)) (W2 m ρ c (Proc.devRef .tc main_arg2)) (W2 m ρ c (Proc.devRef .tc main_arg3))
          (W2 m ρ c (Proc.devRef .tc main_v3)) := by
    after_results <;> rfl
  rw [at2_arg1 m ρ c, at2_arg2 m ρ c, at2_arg3 m ρ c] at h
  exact h

/-- … and the first bias as one row. -/
theorem entry1_bias (c : Dev nD) :
    V3 m ρ c main_v17 = shapeCast S1x128 (m ((c : Thread nD τ).loc main_arg5)) shapeCasts_S128_S1x128 := by
  have h : StableHlo.after hostOps1 (W2 m ρ c) (Proc.devRef .tc main_v17)
      = shapeCast S1x128 (W2 m ρ c (Proc.devRef .tc main_arg5)) shapeCasts_S128_S1x128 := by
    after_results <;> rfl
  rw [at2_arg5 m ρ c] at h
  exact h

/-- The first rectifier leaves the hidden features in the array the second projection's narrowing reads. -/
theorem exit1 (c : Dev nD) : V4 m ρ c main_v18 = (dat1 (V3 m ρ) c).arrAt 2 cfg1.N := W4_arr m ρ c 2

/-- The second projection reads the hidden features, narrowed … -/
theorem entry2_nodes (c : Dev nD) : (V5 m ρ c main_v19 : S50000x128.Idx → EReal) = (V4 m ρ c main_v18 : S50000x128.Idx → EReal) := by
  show StableHlo.after hostOps2 (W4 m ρ c) (Proc.devRef .tc main_v19) = _
  after_results <;> rfl

/-- … and the second layer's weights, narrowed before the first region and untouched since. -/
theorem entry2_weights (c : Dev nD) : (V5 m ρ c main_v2 : S128x128.Idx → EReal) = (m ((c : Thread nD τ).loc main_arg6) : S128x128.Idx → EReal) :=
  (show StableHlo.after hostOps2 (W4 m ρ c) (Proc.devRef .tc main_v2) = W4 m ρ c (Proc.devRef .tc main_v2) by after_results <;> rfl).trans <|
    (W4_of_ne m ρ c main_v2 (by decide)).trans <|
    (show StableHlo.after hostOps1 (W2 m ρ c) (Proc.devRef .tc main_v2) = W2 m ρ c (Proc.devRef .tc main_v2) by after_results <;> rfl).trans <|
    (W2_of_ne m ρ c main_v2 (by decide)).trans (by
      show StableHlo.after hostOps0 (W0 m ρ c) (Proc.devRef .tc main_v2) = _
      after_results <;> rfl)

/-- The second projection leaves its product in the array the second aggregation reads. -/
theorem exit2 (c : Dev nD) : V6 m ρ c main_v20 = (dat2 (V5 m ρ) c).arrAt 2 cfg2.N := W6_arr m ρ c 2

set_option maxHeartbeats 2000000 in
/-- The second rectifier reads the adjacency applied to the second projection … -/
theorem entry3_sum (c : Dev nD) :
    V7 m ρ c main_v33
      = Cert.Gcn.aggregate (F := Ideal) (m ((c : Thread nD τ).loc main_arg1)) (m ((c : Thread nD τ).loc main_arg2)) (m ((c : Thread nD τ).loc main_arg3))
          (V6 m ρ c main_v20) := by
  have h : StableHlo.after hostOps3 (W6 m ρ c) (Proc.devRef .tc main_v33)
      = Cert.Gcn.aggregate (F := Ideal) (W6 m ρ c (Proc.devRef .tc main_arg1)) (W6 m ρ c (Proc.devRef .tc main_arg2)) (W6 m ρ c (Proc.devRef .tc main_arg3))
          (W6 m ρ c (Proc.devRef .tc main_v20)) := by
    after_results_simp <;> rfl
  rw [at6_arg1 m ρ c, at6_arg2 m ρ c, at6_arg3 m ρ c] at h
  exact h

set_option maxHeartbeats 2000000 in
/-- … and the second bias as one row. -/
theorem entry3_bias (c : Dev nD) :
    V7 m ρ c main_v34 = shapeCast S1x128 (m ((c : Thread nD τ).loc main_arg7)) shapeCasts_S128_S1x128 := by
  have h : StableHlo.after hostOps3 (W6 m ρ c) (Proc.devRef .tc main_v34)
      = shapeCast S1x128 (W6 m ρ c (Proc.devRef .tc main_arg7)) shapeCasts_S128_S1x128 := by
    after_results_simp <;> rfl
  rw [at6_arg7 m ρ c] at h
  exact h

/-- The second rectifier leaves the result. -/
theorem exit3 (c : Dev nD) : W8 m ρ c (Proc.devRef .tc main_v35) = (dat3 (V7 m ρ) c).arrAt 2 cfg3.N := W8_arr m ρ c 2

end Cert.KernelIdeal.Stretches
end
-- ==== Proof.Bridge.lean ====
import proofs.«145746_j87170656240449_1_alg».proof.Proof.Project1
import proofs.«145746_j87170656240449_1_alg».proof.Proof.Project2
import proofs.«145746_j87170656240449_1_alg».proof.Proof.Activate1
import proofs.«145746_j87170656240449_1_alg».proof.Proof.Activate3
import proofs.«145746_j87170656240449_1_alg».proof.Proof.Stretches
import Idealize.ShloMosaic.Lib.ValueLayout

noncomputable section

/-! The kernel program's result is the reference's, stage by stage. On the extended reals a change of float format is the identity, a
    block's product into a zero accumulator and the host's contraction are the same finite sum, a bias reshaped to one row and a bias
    broadcast twice read the same entry, and the sparse aggregation is the same function on both sides. So, going down the two layers:
    projection, aggregation, bias and rectifier of the kernel program each equal the reference's stage of the same name. -/

namespace Cert.KernelIdeal.Bridge

open Cert.KernelIdeal Cert.KernelIdeal.Gen Cert.KernelIdeal.Layers Cert.KernelIdeal.Stretches
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-- The launch contents of the eight arguments, typed as the reference's stages take them. -/
abbrev a0 : (⟨Cert.ReferenceIdeal.S50000x256, .f32⟩ : BufTy).Contents (Elt Ideal) := m ((c : Thread nD τ).loc main_arg0)
abbrev a1 : (⟨Cert.ReferenceIdeal.S800000, .i32⟩ : BufTy).Contents (Elt Ideal) := m ((c : Thread nD τ).loc main_arg1)
abbrev a2 : (⟨Cert.ReferenceIdeal.S800000, .i32⟩ : BufTy).Contents (Elt Ideal) := m ((c : Thread nD τ).loc main_arg2)
abbrev a3 : (⟨Cert.ReferenceIdeal.S800000, .f32⟩ : BufTy).Contents (Elt Ideal) := m ((c : Thread nD τ).loc main_arg3)
abbrev a4 : (⟨Cert.ReferenceIdeal.S256x128, .f32⟩ : BufTy).Contents (Elt Ideal) := m ((c : Thread nD τ).loc main_arg4)
abbrev a5 : (⟨Cert.ReferenceIdeal.S128, .f32⟩ : BufTy).Contents (Elt Ideal) := m ((c : Thread nD τ).loc main_arg5)
abbrev a6 : (⟨Cert.ReferenceIdeal.S128x128, .f32⟩ : BufTy).Contents (Elt Ideal) := m ((c : Thread nD τ).loc main_arg6)
abbrev a7 : (⟨Cert.ReferenceIdeal.S128, .f32⟩ : BufTy).Contents (Elt Ideal) := m ((c : Thread nD τ).loc main_arg7)

/-! ## Layer 1 -/

/-- The first projection: the 25 row blocks' products are the host's one contraction of the features with the weights. -/
theorem projected1_eq : projected1 (V1 m ρ) c = Cert.ReferenceIdeal.Read.val_main_v0 (F := Ideal) (a0 m c) (a4 m c) := by
  rw [project1_out]
  funext i
  rw [Cert.ReferenceIdeal.Read.val_main_v0_apply]
  refine Finset.sum_congr rfl fun k _ => ?_
  have hn : nodes1 (V1 m ρ) c = a0 m c := entry0_nodes m ρ c
  have hw : weights1 (V1 m ρ) c = a4 m c := entry0_weights m ρ c
  rw [hn, hw]
  rfl

/-- The first aggregation: the shared function of the edge list, applied to equal projections. -/
theorem summed1_eq : summed1 (V3 m ρ) c = Cert.ReferenceIdeal.Read.val_main_v13 (F := Ideal) (a0 m c) (a1 m c) (a2 m c) (a3 m c) (a4 m c) :=
  (entry1_sum m ρ c).trans <|
    (congrArg (Cert.Gcn.aggregate (F := Ideal) (a1 m c) (a2 m c) (a3 m c)) ((exit0 m ρ c).trans (projected1_eq m ρ c))).trans
      (Cert.Gcn.ref_aggregate1 (F := Ideal) (a0 m c) (a1 m c) (a2 m c) (a3 m c) (a4 m c)).symm

/-- The first bias row holds the bias vector's lanes. -/
theorem biasRow1_apply (q : Fin 128) : biasRow1 (V3 m ρ) c (ix2 (0 : Fin 1) q) = a5 m c (ix1 q) := by
  have hb : biasRow1 (V3 m ρ) c = shapeCast ⟨2, ![1, 128]⟩ (a5 m c) shapeCasts_S128_S1x128 := entry1_bias m ρ c
  rw [hb, shapeCast_a_1a_apply]

/-- The hidden features: bias added lane by lane, then the larger of the sum and zero — the reference's `relu` of its biased sum. -/
theorem activated1_eq :
    activated1 (V3 m ρ) c = Cert.ReferenceIdeal.Read.val_main_v17 (F := Ideal) (a0 m c) (a1 m c) (a2 m c) (a3 m c) (a4 m c) (a5 m c) := by
  rw [activate1_out]
  funext i
  rw [Cert.ReferenceIdeal.Read.val_main_v17_apply, Cert.ReferenceIdeal.Read.val_main_v16_apply, Cert.ReferenceIdeal.Read.val_main_call0_v0_apply, Cert.ReferenceIdeal.Read.val_main_call0_cst_apply,
    Cert.ReferenceIdeal.Read.val_main_v15_apply, Cert.ReferenceIdeal.Read.val_main_v14_apply]
  have hlane : Cert.ReferenceIdeal.Read.idx_main_v14 (Cert.ReferenceIdeal.Read.idx_main_v15 i) = ix1 (⟨(i 1).val, (i 1).isLt⟩ : Fin 128) :=
    funext fun a => by match a with | ⟨0, _⟩ => rfl
  rw [hlane]
  exact congrArg₂ (fun s b : EReal => max (s + b) (FloatOps.ofBits (F := Ideal) .f32 0x00000000#32))
    (congrFun (summed1_eq m ρ c) i) (biasRow1_apply m ρ c (⟨(i 1).val, (i 1).isLt⟩ : Fin 128))

/-! ## Layer 2 -/

/-- The second projection reads the hidden features and the second weights. -/
theorem projected2_eq :
    projected2 (V5 m ρ) c = Cert.ReferenceIdeal.Read.val_main_v18 (F := Ideal) (a0 m c) (a1 m c) (a2 m c) (a3 m c) (a4 m c) (a5 m c) (a6 m c) := by
  rw [project2_out]
  funext i
  rw [Cert.ReferenceIdeal.Read.val_main_v18_apply]
  refine Finset.sum_congr rfl fun k _ => ?_
  have hn : nodes2 (V5 m ρ) c = Cert.ReferenceIdeal.Read.val_main_v17 (F := Ideal) (a0 m c) (a1 m c) (a2 m c) (a3 m c) (a4 m c) (a5 m c) :=
    (entry2_nodes m ρ c).trans ((exit1 m ρ c).trans (activated1_eq m ρ c))
  have hw : weights2 (V5 m ρ) c = a6 m c := entry2_weights m ρ c
  rw [hn, hw]
  rfl

/-- The second aggregation. -/
theorem summed3_eq :
    summed3 (V7 m ρ) c = Cert.ReferenceIdeal.Read.val_main_v31 (F := Ideal) (a0 m c) (a1 m c) (a2 m c) (a3 m c) (a4 m c) (a5 m c) (a6 m c) :=
  (entry3_sum m ρ c).trans <|
    (congrArg (Cert.Gcn.aggregate (F := Ideal) (a1 m c) (a2 m c) (a3 m c)) ((exit2 m ρ c).trans (projected2_eq m ρ c))).trans
      (Cert.Gcn.ref_aggregate2 (F := Ideal) (a0 m c) (a1 m c) (a2 m c) (a3 m c) (a4 m c) (a5 m c) (a6 m c)).symm

/-- The second bias row holds the second bias vector's lanes. -/
theorem biasRow3_apply (q : Fin 128) : biasRow3 (V7 m ρ) c (ix2 (0 : Fin 1) q) = a7 m c (ix1 q) := by
  have hb : biasRow3 (V7 m ρ) c = shapeCast ⟨2, ![1, 128]⟩ (a7 m c) shapeCasts_S128_S1x128 := entry3_bias m ρ c
  rw [hb, shapeCast_a_1a_apply]

/-- The output features. -/
theorem activated3_eq :
    activated3 (V7 m ρ) c
      = Cert.ReferenceIdeal.Read.val_main_v35 (F := Ideal) (a0 m c) (a1 m c) (a2 m c) (a3 m c) (a4 m c) (a5 m c) (a6 m c) (a7 m c) := by
  rw [activate3_out]
  funext i
  rw [Cert.ReferenceIdeal.Read.val_main_v35_apply, Cert.ReferenceIdeal.Read.val_main_v34_apply, Cert.ReferenceIdeal.Read.val_main_call1_v0_apply, Cert.ReferenceIdeal.Read.val_main_call1_cst_apply,
    Cert.ReferenceIdeal.Read.val_main_v33_apply, Cert.ReferenceIdeal.Read.val_main_v32_apply]
  have hlane : Cert.ReferenceIdeal.Read.idx_main_v32 (Cert.ReferenceIdeal.Read.idx_main_v33 i) = ix1 (⟨(i 1).val, (i 1).isLt⟩ : Fin 128) :=
    funext fun a => by match a with | ⟨0, _⟩ => rfl
  rw [hlane]
  exact congrArg₂ (fun s b : EReal => max (s + b) (FloatOps.ofBits (F := Ideal) .f32 0x00000000#32))
    (congrFun (summed3_eq m ρ c) i) (biasRow3_apply m ρ c (⟨(i 1).val, (i 1).isLt⟩ : Fin 128))

/-- The kernel program's result buffer at the last boundary holds the reference's result term of the launch contents. -/
theorem result_eq :
    W8 m ρ c (Proc.devRef .tc main_v35)
      = Cert.ReferenceIdeal.Read.val_main_v35 (F := Ideal) (a0 m c) (a1 m c) (a2 m c) (a3 m c) (a4 m c) (a5 m c) (a6 m c) (a7 m c) :=
  (exit3 m ρ c).trans (activated3_eq m ρ c)

end Cert.KernelIdeal.Bridge
end
-- ==== Proof.lean ====
/- Two-layer graph convolution, `relu(A·(X·W₁) + b₁)` then `relu(A·(H·W₂) + b₂)` with `A` a sparse adjacency given as an edge list: the
   kernel program computes the two projections `X·W₁`, `H·W₂` in 25 row blocks of 2000 nodes each (inputs narrowed to a short float
   format, products accumulated from zero) and the two bias-plus-rectifier steps block by block, and leaves the sparse aggregation
   `A·(…)` to host operations; the reference does everything with whole-array host operations.
   On the extended reals the two programs are the same function of the eight arguments: narrowing is the identity, a row block's
   product is the restriction of the whole product to its rows (both are the finite sum over the contracted axis), the bias reshaped to
   one row and broadcast over the block reads the same lane as the reference's broadcast bias, `max(·, 0)` is `relu`, and the aggregation is
   printed as the same chain of host operations on both sides and is carried as one function. No algebraic law beyond equality of these
   sums is needed, so finiteness of the inputs is never used.
   The three frames are the generated ones; the kernel program's run is stated once more with its result buffer in the post
   (Proof/KernelRun.lean), the value of each region is read off its generated proof data (Proof/Project1.lean, Project2.lean,
   Activate1.lean, Activate3.lean), the host stretches between them are read in Proof/Stretches.lean, and Proof/Bridge.lean joins them
   to the reference's stages. -/
import proofs.«145746_j87170656240449_1_alg».proof.Defs
import proofs.«145746_j87170656240449_1_alg».proof.Proof.Gen.Kernel
import proofs.«145746_j87170656240449_1_alg».proof.Proof.Gen.Kernel.Skeleton
import proofs.«145746_j87170656240449_1_alg».proof.Proof.Gen.Kernel.Launch
import proofs.«145746_j87170656240449_1_alg».proof.Proof.Gen.Kernel.Points
import proofs.«145746_j87170656240449_1_alg».proof.Proof.Gen.Kernel.Frame
import proofs.«145746_j87170656240449_1_alg».proof.Proof.Gen.KernelIdeal
import proofs.«145746_j87170656240449_1_alg».proof.Proof.Gen.KernelIdeal.Skeleton
import proofs.«145746_j87170656240449_1_alg».proof.Proof.Gen.KernelIdeal.Launch
import proofs.«145746_j87170656240449_1_alg».proof.Proof.Gen.KernelIdeal.Points
import proofs.«145746_j87170656240449_1_alg».proof.Proof.Gen.KernelIdeal.Frame
import proofs.«145746_j87170656240449_1_alg».proof.Proof.Gen.ReferenceIdeal
import proofs.«145746_j87170656240449_1_alg».proof.Proof.Gen.ReferenceIdeal.Run
import proofs.«145746_j87170656240449_1_alg».proof.Proof.Gen.ReferenceIdeal.Read
import proofs.«145746_j87170656240449_1_alg».proof.Proof.Gen.Pre_finite_inputs
import proofs.«145746_j87170656240449_1_alg».proof.Proof.KernelRun
import proofs.«145746_j87170656240449_1_alg».proof.Proof.Bridge
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does the kernel program read at the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the reference's result term of the shared arguments: the kernel program by the stage-by-stage bridge,
    the reference by its own run. -/
theorem algebraic : Cert.algebraic_KernelIdeal_ReferenceIdeal := by
  intro m ρ m' ρ' _ hagree
  refine ⟨fun c => Cert.ReferenceIdeal.Read.val_main_v35 (F := Ideal) (Cert.KernelIdeal.Bridge.a0 m c) (Cert.KernelIdeal.Bridge.a1 m c)
    (Cert.KernelIdeal.Bridge.a2 m c) (Cert.KernelIdeal.Bridge.a3 m c) (Cert.KernelIdeal.Bridge.a4 m c) (Cert.KernelIdeal.Bridge.a5 m c)
    (Cert.KernelIdeal.Bridge.a6 m c) (Cert.KernelIdeal.Bridge.a7 m c), ?_, ?_⟩
  · exact (θ_run Cert.KernelIdeal.defs _ _).mono
      (fun r h c => ⟨(h c).1.trans (Cert.KernelIdeal.Bridge.result_eq m ρ c), (h c).2⟩) (Cert.KernelIdeal.Launch.run_result m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v35_eq, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
